-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S2097152x3 : Shape := ⟨2, ![2097152, 3]⟩
abbrev S2097152 : Shape := ⟨1, ![2097152]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S2097152 : S_.BroadcastsInDim S2097152 (![] : Fin 0 → Fin S2097152.rank)
  reducesTo_S2097152_S_d0 : S2097152.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x17 : S_.BroadcastsInDim S64x17 (![] : Fin 0 → Fin S64x17.rank)
  reducesTo_S64x17_S_d0_1 : S64x17.ReducesTo [0, 1] S_
  bcast_S_S18x64 : S_.BroadcastsInDim S18x64 (![] : Fin 0 → Fin S18x64.rank)
  reducesTo_S18x64_S_d0_1 : S18x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x64 .f32) (main_arg8 : FVec F S64x64 .f32) (main_arg9 : FVec F S64x3 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x3 .f32 := Host.absf main_arg9
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  main_v48

def fn_part1 {F : FTy → Type} [FloatOps F] (main_arg4 : FVec F S64x64 .f32) (main_arg5 : FVec F S64x17 .f32) (main_arg6 : FVec F S18x64 .f32) (main_arg7 : FVec F S64x64 .f32) (main_arg8 : FVec F S64x64 .f32) (main_arg9 : FVec F S64x3 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x17 .f32 := Host.absf main_arg5
  let main_cst_8 : FVec F S_ .f32 := constant S_ .f32 0x7F800000#32
  let main_v25 : FVec F S64x17 .f32 := broadcastInDim S64x17 ![] bcast_S_S64x17 main_cst_8
  let main_v26 : IVec S64x17 1 := cmpf .olt main_v24 main_v25
  let main_c_9 : IVec S_ 1 := constantI S_ 1 1#1
  let main_v27 : IVec S_ 1 := (fun x v => Host.reduce IntOp.andi x v reducesTo_S64x17_S_d0_1 h_S_) main_v26 main_c_9
  let main_v28 : IVec S_ 1 := andi main_v23 main_v27
  let main_v29 : FVec F S18x64 .f32 := Host.absf main_arg6
  let main_cst_10 : FVec F S_ .f32 := constant S_ .f32 0x7F800000#32
  let main_v30 : FVec F S18x64 .f32 := broadcastInDim S18x64 ![] bcast_S_S18x64 main_cst_10
  let main_v31 : IVec S18x64 1 := cmpf .olt main_v29 main_v30
  let main_c_11 : IVec S_ 1 := constantI S_ 1 1#1
  let main_v32 : IVec S_ 1 := (fun x v => Host.reduce IntOp.andi x v reducesTo_S18x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2097152x32 .f32) (main_arg1 : FVec F S2097152x3 .f32) (main_arg2 : FVec F S2097152 .f32) (main_arg3 : FVec F S32x64 .f32) (main_arg4 : FVec F S64x64 .f32) (main_arg5 : FVec F S64x17 .f32) (main_arg6 : FVec F S18x64 .f32) (main_arg7 : FVec F S64x64 .f32) (main_arg8 : FVec F S64x64 .f32) (main_arg9 : FVec F S64x3 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S2097152 .f32 := Host.absf main_arg2
  let main_cst_2 : FVec F S_ .f32 := constant S_ .f32 0x7F800000#32
  let main_v10 : FVec F S2097152 .f32 := broadcastInDim S2097152 ![] bcast_S_S2097152 main_cst_2
  let main_v11 : IVec S2097152 1 := cmpf .olt main_v9 main_v10
  let main_c_3 : IVec S_ 1 := constantI S_ 1 1#1
  let main_v12 : IVec S_ 1 := (fun x v => Host.reduce IntOp.andi x v reducesTo_S2097152_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_v13 main_v16
-- ==== Kernel.lean ====
abbrev S2097152x32 : Shape := ⟨2, ![2097152, 32]⟩
abbrev S2097152x3 : Shape := ⟨2, ![2097152, 3]⟩
abbrev S2097152 : Shape := ⟨1, ![2097152]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S2097152x1 : Shape := ⟨2, ![2097152, 1]⟩
abbrev S2097152x4 : Shape := ⟨2, ![2097152, 4]⟩
abbrev S2048x32 : Shape := ⟨2, ![2048, 32]⟩
abbrev S2048x3 : Shape := ⟨2, ![2048, 3]⟩
abbrev S2048x1 : Shape := ⟨2, ![2048, 1]⟩
abbrev S2048x4 : Shape := ⟨2, ![2048, 4]⟩
abbrev S2048x64 : Shape := ⟨2, ![2048, 64]⟩
abbrev S2048x17 : Shape := ⟨2, ![2048, 17]⟩
abbrev S2048x15 : Shape := ⟨2, ![2048, 15]⟩
abbrev S2048x18 : Shape := ⟨2, ![2048, 18]⟩

abbrev nBuf : Space → Nat
  | .hbm => 12
  | .vmem => 15
  | .smem => 0
  | _ => 0

abbrev bufTy : (tb : Table) → Fin (tcTables nBuf tb) → BufTy
  | .hbm, ⟨0, _⟩ => ⟨S2097152x32, .f32⟩
  | .hbm, ⟨1, _⟩ => ⟨S2097152x3, .f32⟩
  | .hbm, ⟨2, _⟩ => ⟨S2097152, .f32⟩
  | .hbm, ⟨3, _⟩ => ⟨S32x64, .f32⟩
  | .hbm, ⟨4, _⟩ => ⟨S64x64, .f32⟩
  | .hbm, ⟨5, _⟩ => ⟨S64x17, .f32⟩
  | .hbm, ⟨6, _⟩ => ⟨S18x64, .f32⟩
  | .hbm, ⟨7, _⟩ => ⟨S64x64, .f32⟩
  | .hbm, ⟨8, _⟩ => ⟨S64x64, .f32⟩
  | .hbm, ⟨9, _⟩ => ⟨S64x3, .f32⟩
  | .hbm, ⟨10, _⟩ => ⟨S2097152x1, .f32⟩
  | .hbm, ⟨11, _⟩ => ⟨S2097152x4, .f32⟩
  | .local _ .vmem, ⟨0, _⟩ => ⟨S2048x32, .f32⟩
  | .local _ .vmem, ⟨1, _⟩ => ⟨S2048x32, .f32⟩
  | .local _ .vmem, ⟨2, _⟩ => ⟨S2048x3, .f32⟩
  | .local _ .vmem, ⟨3, _⟩ => ⟨S2048x3, .f32⟩
  | .local _ .vmem, ⟨4, _⟩ => ⟨S2048x1, .f32⟩
  | .local _ .vmem, ⟨5, _⟩ => ⟨S2048x1, .f32⟩
  | .local _ .vmem, ⟨6, _⟩ => ⟨S32x64, .f32⟩
  | .local _ .vmem, ⟨7, _⟩ => ⟨S64x64, .f32⟩
  | .local _ .vmem, ⟨8, _⟩ => ⟨S64x17, .f32⟩
  | .local _ .vmem, ⟨9, _⟩ => ⟨S18x64, .f32⟩
  | .local _ .vmem, ⟨10, _⟩ => ⟨S64x64, .f32⟩
  | .local _ .vmem, ⟨11, _⟩ => ⟨S64x64, .f32⟩
  | .local _ .vmem, ⟨12, _⟩ => ⟨S64x3, .f32⟩
  | .local _ .vmem, ⟨13, _⟩ => ⟨S2048x4, .f32⟩
  | .local _ .vmem, ⟨14, _⟩ => ⟨S2048x4, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S18x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S2097152_S2097152x1 : S2097152.ShapeCasts S2097152x1
  inb_S2048x32_S2048x32_0_0 : ∀ a, (![0, 0] : Fin 2 → Nat) a + S2048x32.size a ≤ S2048x32.size a
  h_S2048x32 : 0 < S2048x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S64x17_S64x17_0_0 : ∀ a, (![0, 0] : Fin 2 → Nat) a + S64x17.size a ≤ S64x17.size a
  h_S64x17 : 0 < S64x17.numel
  slices_S2048x17_o0_0_S2048x1 : S2048x17.Slices ![0, 0] S2048x1
  slices_S2048x17_o0_2_S2048x15 : S2048x17.Slices ![0, 2] S2048x15
  inb_S2048x3_S2048x3_0_0 : ∀ a, (![0, 0] : Fin 2 → Nat) a + S2048x3.size a ≤ S2048x3.size a
  h_S2048x3 : 0 < S2048x3.numel
  concatenates_S2048x3_S2048x15_S2048x18_d1 : Shape.Concatenates [S2048x3, S2048x15] S2048x18 1
  inb_S18x64_S18x64_0_0 : ∀ a, (![0, 0] : Fin 2 → Nat) a + S18x64.size a ≤ S18x64.size a
  h_S18x64 : 0 < S18x64.numel
  inb_S64x3_S64x3_0_0 : ∀ a, (![0, 0] : Fin 2 → Nat) a + S64x3.size a ≤ S64x3.size a
  h_S64x3 : 0 < S64x3.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x3 : S2048x1.Broadcasts S2048x3
  concatenates_S2048x3_S2048x1_S2048x4_d1 : Shape.Concatenates [S2048x3, S2048x1] S2048x4 1
  inb_S2048x4_S2048x4_0_0 : ∀ a, (![0, 0] : Fin 2 → Nat) a + S2048x4.size a ≤ S2048x4.size a
  h_S2048x4 : 0 < S2048x4.numel
  dot_S2048x32_S32x64_S2048x64_1_0_0_1_n_n_wf : DotDims.WF S2048x32 S32x64 S2048x64 [1] [0] [0] [1] [] []
  dot_S2048x64_S64x64_S2048x64_1_0_0_1_n_n_wf : DotDims.WF S2048x64 S64x64 S2048x64 [1] [0] [0] [1] [] []
  dot_S2048x64_S64x17_S2048x17_1_0_0_1_n_n_wf : DotDims.WF S2048x64 S64x17 S2048x17 [1] [0] [0] [1] [] []
  dot_S2048x18_S18x64_S2048x64_1_0_0_1_n_n_wf : DotDims.WF S2048x18 S18x64 S2048x64 [1] [0] [0] [1] [] []
  dot_S2048x64_S64x3_S2048x3_1_0_0_1_n_n_wf : DotDims.WF S2048x64 S64x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S2097152x32.size a
  hwx0_0 : ∀ i : grid0.Coords, EltTy.bits .f32 = 32 ∨ (Rect.block (s := S2097152x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S2097152x3.size a
  hwx0_1 : ∀ i : grid0.Coords, EltTy.bits .f32 = 32 ∨ (Rect.block (s := S2097152x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2097152x1.size a
  hwx0_2 : ∀ i : grid0.Coords, EltTy.bits .f32 = 32 ∨ (Rect.block (s := S2097152x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x17.size a ≤ S64x17.size a
  hwx0_5 : ∀ i : grid0.Coords, EltTy.bits .f32 = 32 ∨ (Rect.block (s := S64x17) S64x17.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S18x64.size a ≤ S18x64.size a
  hwx0_6 : ∀ i : grid0.Coords, EltTy.bits .f32 = 32 ∨ (Rect.block (s := S18x64) S18x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x3.size a ≤ S64x3.size a
  hwx0_9 : ∀ i : grid0.Coords, EltTy.bits .f32 = 32 ∨ (Rect.block (s := S64x3) S64x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x4.size a ≤ S2097152x4.size a
  hwx0_10 : ∀ i : grid0.Coords, EltTy.bits .f32 = 32 ∨ (Rect.block (s := S2097152x4) S2048x4.size (cc0_transform_10 i) (hinb0_10 i)).WholeWords (EltTy.packing .f32)

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x17_S2048x17_1_0_0_1_n_n : DotDims S2048x64 S64x17 S2048x17 where
  lhsContracting := [1]
  rhsContracting := [0]
  lhsNonContracting := [0]
  rhsNonContracting := [1]
  lhsBatch := []
  rhsBatch := []
  wf := dot_S2048x64_S64x17_S2048x17_1_0_0_1_n_n_wf
def dot_S2048x18_S18x64_S2048x64_1_0_0_1_n_n : DotDims S2048x18 S18x64 S2048x64 where
  lhsContracting := [1]
  rhsContracting := [0]
  lhsNonContracting := [0]
  rhsNonContracting := [1]
  lhsBatch := []
  rhsBatch := []
  wf := dot_S2048x18_S18x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x17.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S18x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S2048x4.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S2097152x3 : Shape := ⟨2, ![2097152, 3]⟩
abbrev S2097152 : Shape := ⟨1, ![2097152]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S2097152x64 : Shape := ⟨2, ![2097152, 64]⟩
abbrev S_ : Shape := ⟨0, ![]⟩
abbrev S2097152x17 : Shape := ⟨2, ![2097152, 17]⟩
abbrev S2097152x1 : Shape := ⟨2, ![2097152, 1]⟩
abbrev S2097152x15 : Shape := ⟨2, ![2097152, 15]⟩
abbrev S2097152x18 : Shape := ⟨2, ![2097152, 18]⟩
abbrev S2097152x4 : Shape := ⟨2, ![2097152, 4]⟩

abbrev nBuf : Space → Nat
  | .hbm => 71
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152x3, .f32⟩
  | .hbm, ⟨2, _⟩ => ⟨S2097152, .f32⟩
  | .hbm, ⟨3, _⟩ => ⟨S32x64, .f32⟩
  | .hbm, ⟨4, _⟩ => ⟨S64x64, .f32⟩
  | .hbm, ⟨5, _⟩ => ⟨S64x17, .f32⟩
  | .hbm, ⟨6, _⟩ => ⟨S18x64, .f32⟩
  | .hbm, ⟨7, _⟩ => ⟨S64x64, .f32⟩
  | .hbm, ⟨8, _⟩ => ⟨S64x64, .f32⟩
  | .hbm, ⟨9, _⟩ => ⟨S64x3, .f32⟩
  | .hbm, ⟨10, _⟩ => ⟨S2097152x64, .f32⟩
  | .hbm, ⟨11, _⟩ => ⟨S_, .f32⟩
  | .hbm, ⟨12, _⟩ => ⟨S2097152x64, .f32⟩
  | .hbm, ⟨13, _⟩ => ⟨S2097152x64, .f32⟩
  | .hbm, ⟨14, _⟩ => ⟨S2097152x64, .f32⟩
  | .hbm, ⟨15, _⟩ => ⟨S_, .f32⟩
  | .hbm, ⟨16, _⟩ => ⟨S2097152x64, .f32⟩
  | .hbm, ⟨17, _⟩ => ⟨S2097152x64, .f32⟩
  | .hbm, ⟨18, _⟩ => ⟨S2097152x17, .f32⟩
  | .hbm, ⟨19, _⟩ => ⟨S2097152x1, .f32⟩
  | .hbm, ⟨20, _⟩ => ⟨S2097152, .f32⟩
  | .hbm, ⟨21, _⟩ => ⟨S_, .f32⟩
  | .hbm, ⟨22, _⟩ => ⟨S2097152, .f32⟩
  | .hbm, ⟨23, _⟩ => ⟨S2097152, .f32⟩
  | .hbm, ⟨24, _⟩ => ⟨S2097152, .f32⟩
  | .hbm, ⟨25, _⟩ => ⟨S2097152, .f32⟩
  | .hbm, ⟨26, _⟩ => ⟨S2097152, .i1⟩
  | .hbm, ⟨27, _⟩ => ⟨S2097152, .f32⟩
  | .hbm, ⟨28, _⟩ => ⟨S2097152, .f32⟩
  | .hbm, ⟨29, _⟩ => ⟨S2097152, .f32⟩
  | .hbm, ⟨30, _⟩ => ⟨S2097152, .f32⟩
  | .hbm, ⟨31, _⟩ => ⟨S2097152, .f32⟩
  | .hbm, ⟨32, _⟩ => ⟨S2097152, .f32⟩
  | .hbm, ⟨33, _⟩ => ⟨S2097152, .f32⟩
  | .hbm, ⟨34, _⟩ => ⟨S2097152, .f32⟩
  | .hbm, ⟨35, _⟩ => ⟨S2097152x15, .f32⟩
  | .hbm, ⟨36, _⟩ => ⟨S2097152x18, .f32⟩
  | .hbm, ⟨37, _⟩ => ⟨S2097152x64, .f32⟩
  | .hbm, ⟨38, _⟩ => ⟨S_, .f32⟩
  | .hbm, ⟨39, _⟩ => ⟨S2097152x64, .f32⟩
  | .hbm, ⟨40, _⟩ => ⟨S2097152x64, .f32⟩
  | .hbm, ⟨41, _⟩ => ⟨S2097152x64, .f32⟩
  | .hbm, ⟨42, _⟩ => ⟨S_, .f32⟩
  | .hbm, ⟨43, _⟩ => ⟨S2097152x64, .f32⟩
  | .hbm, ⟨44, _⟩ => ⟨S2097152x64, .f32⟩
  | .hbm, ⟨45, _⟩ => ⟨S2097152x64, .f32⟩
  | .hbm, ⟨46, _⟩ => ⟨S_, .f32⟩
  | .hbm, ⟨47, _⟩ => ⟨S2097152x64, .f32⟩
  | .hbm, ⟨48, _⟩ => ⟨S2097152x64, .f32⟩
  | .hbm, ⟨49, _⟩ => ⟨S2097152x3, .f32⟩
  | .hbm, ⟨50, _⟩ => ⟨S2097152x3, .f32⟩
  | .hbm, ⟨51, _⟩ => ⟨S2097152x3, .f32⟩
  | .hbm, ⟨52, _⟩ => ⟨S_, .f32⟩
  | .hbm, ⟨53, _⟩ => ⟨S2097152x3, .f32⟩
  | .hbm, ⟨54, _⟩ => ⟨S2097152x3, .f32⟩
  | .hbm, ⟨55, _⟩ => ⟨S_, .f32⟩
  | .hbm, ⟨56, _⟩ => ⟨S2097152x3, .f32⟩
  | .hbm, ⟨57, _⟩ => ⟨S2097152x3, .f32⟩
  | .hbm, ⟨58, _⟩ => ⟨S2097152, .f32⟩
  | .hbm, ⟨59, _⟩ => ⟨S2097152x1, .f32⟩
  | .hbm, ⟨60, _⟩ => ⟨S2097152x3, .f32⟩
  | .hbm, ⟨61, _⟩ => ⟨S2097152x3, .f32⟩
  | .hbm, ⟨62, _⟩ => ⟨S_, .f32⟩
  | .hbm, ⟨63, _⟩ => ⟨S2097152, .f32⟩
  | .hbm, ⟨64, _⟩ => ⟨S2097152, .f32⟩
  | .hbm, ⟨65, _⟩ => ⟨S2097152, .f32⟩
  | .hbm, ⟨66, _⟩ => ⟨S2097152x1, .f32⟩
  | .hbm, ⟨67, _⟩ => ⟨S2097152x3, .f32⟩
  | .hbm, ⟨68, _⟩ => ⟨S2097152x3, .f32⟩
  | .hbm, ⟨69, _⟩ => ⟨S2097152x1, .f32⟩
  | .hbm, ⟨70, _⟩ => ⟨S2097152x4, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_call1_cst : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call2_cst : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call3_cst : Ref sig .tc := ⟨.hbm, 38, rfl⟩
abbrev main_call3_v0 : Ref sig .tc := ⟨.hbm, 39, rfl⟩
abbrev main_v11 : Ref sig .tc := ⟨.hbm, 40, rfl⟩
abbrev main_v12 : Ref sig .tc := ⟨.hbm, 41, rfl⟩
abbrev main_call4_cst : Ref sig .tc := ⟨.hbm, 42, rfl⟩
abbrev main_call4_v0 : Ref sig .tc := ⟨.hbm, 43, rfl⟩
abbrev main_v13 : Ref sig .tc := ⟨.hbm, 44, rfl⟩
abbrev main_v14 : Ref sig .tc := ⟨.hbm, 45, rfl⟩
abbrev main_call5_cst : Ref sig .tc := ⟨.hbm, 46, rfl⟩
abbrev main_call5_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst : Ref sig .tc := ⟨.hbm, 52, rfl⟩
abbrev main_v19 : Ref sig .tc := ⟨.hbm, 53, rfl⟩
abbrev main_v20 : Ref sig .tc := ⟨.hbm, 54, rfl⟩
abbrev main_cst_0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]

class Facts₀ : Prop where
  bcast_S_S2097152x64 : S_.BroadcastsInDim S2097152x64 (![] : Fin 0 → Fin S2097152x64.rank)
  slices_S2097152x17_S2097152x1_0_0 : S2097152x17.Slices ![0, 0] S2097152x1
  shapeCasts_S2097152x1_S2097152 : S2097152x1.ShapeCasts S2097152
  bcast_S_S2097152 : S_.BroadcastsInDim S2097152 (![] : Fin 0 → Fin S2097152.rank)
  slices_S2097152x17_S2097152x15_0_2 : S2097152x17.Slices ![0, 2] S2097152x15
  concatenates_S2097152x3_S2097152x15_S2097152x18_d1 : Shape.Concatenates [S2097152x3, S2097152x15] S2097152x18 1
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  bcast_S2097152x1_S2097152x3_0_1 : S2097152x1.BroadcastsInDim S2097152x3 (![0, 1] : Fin 2 → Fin S2097152x3.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x17_S2097152x17_1_0_0_1_n_n_wf : DotDims.WF S2097152x64 S64x17 S2097152x17 [1] [0] [0] [1] [] []
  dot_S2097152x18_S18x64_S2097152x64_1_0_0_1_n_n_wf : DotDims.WF S2097152x18 S18x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x17_S2097152x17_1_0_0_1_n_n : DotDims S2097152x64 S64x17 S2097152x17 where
  lhsContracting := [1]
  rhsContracting := [0]
  lhsNonContracting := [0]
  rhsNonContracting := [1]
  lhsBatch := []
  rhsBatch := []
  wf := dot_S2097152x64_S64x17_S2097152x17_1_0_0_1_n_n_wf
def dot_S2097152x18_S18x64_S2097152x64_1_0_0_1_n_n : DotDims S2097152x18 S18x64 S2097152x64 where
  lhsContracting := [1]
  rhsContracting := [0]
  lhsNonContracting := [0]
  rhsNonContracting := [1]
  lhsBatch := []
  rhsBatch := []
  wf := dot_S2097152x18_S18x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«143177_j70153995813580_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«143177_j70153995813580_1_alg».proof.Proof.LibPlainDotAny
import proofs.«143177_j70153995813580_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.Sample.lean ====
/-
  One sample of the field: the function of a single row that both programs compute.

  A sample is a row `x` of 32 position features, a row `v` of 3 view features and a keep weight `k`. The density net
  sends `x` through three dense layers, the first two followed by a floor at zero, to 17 numbers `h`. The first of them,
  through the stable spelling of `log (1 + e^s)`, times `k`, is the masked density `σ`; the last fifteen, set after the
  three view features, go through four more dense layers (a floor at zero after the first three) and the logistic function
  to three colours. The result row has four entries: each colour times `k` times the ratio `σ / (σ + tiny)`, and then
  `σ + tiny` itself. Nothing here mixes two samples, so an array of samples is handled row by row, in whatever tiling.
-/
import proofs.«143177_j70153995813580_1_alg».proof.Proof.LibRowwise

noncomputable section

namespace Cert.RaySample

open Idealize.ShloMosaic Idealize.ShloMosaic.Rowwise

/-- The float32 word of zero, at its ideal value. -/
def z0 : EReal := Ideal.ofBits .f32 0x00000000#32

/-- The small positive offset of the density (the float32 nearest to a billionth), at its ideal value. -/
def tiny : EReal := Ideal.ofBits .f32 0x3089705F#32

/-- The density net: three dense layers, a floor at zero after the first and after the second. -/
def trunk (W0 : Fin 32 → Fin 64 → EReal) (W1 : Fin 64 → Fin 64 → EReal) (W2 : Fin 64 → Fin 17 → EReal)
    (x : Fin 32 → EReal) : Fin 17 → EReal :=
  dense (floorAt z0 (dense (floorAt z0 (dense x W0)) W1)) W2

/-- `log (1 + e^s)` as both programs spell it: `max s 0 + log1p (e^{-|s - 0|})`, behind a guard `s - 0 ≠ s - 0` that never
    fires on the extended reals. The absolute value is `max d (-d)`. -/
def softplus (s : EReal) : EReal :=
  Scalar.select (Ideal.cmp .une (s - z0) (s - z0)) (s + z0)
    (max s z0 + Ideal.log1p (Ideal.exp (-(max (s - z0) (-(s - z0))))))

/-- The colour net before its logistic: the view features and the last fifteen density outputs end to end, then four
    dense layers with a floor at zero after each of the first three. -/
def colourLogit (W3 : Fin 18 → Fin 64 → EReal) (W4 W5 : Fin 64 → Fin 64 → EReal) (W6 : Fin 64 → Fin 3 → EReal)
    (v : Fin 3 → EReal) (h : Fin 17 → EReal) : Fin 3 → EReal :=
  dense (floorAt z0 (dense (floorAt z0 (dense (floorAt z0
    (dense (join (n := 18) rfl v (cols 2 15 (by decide) h)) W3)) W4)) W5)) W6

/-- The masked density of a sample. -/
def density (k : EReal) (h : Fin 17 → EReal) : EReal := softplus (h 0) * k

/-- The three blended colours of a sample: `σ / (σ + tiny)` times the masked colour. -/
def colours (k : EReal) (σ : EReal) (l : Fin 3 → EReal) : Fin 3 → EReal :=
  fun q => Ideal.div σ (σ + tiny) * (Ideal.logistic (l q) * k)

/-- The result row of one sample. -/
def sample (W0 : Fin 32 → Fin 64 → EReal) (W1 : Fin 64 → Fin 64 → EReal) (W2 : Fin 64 → Fin 17 → EReal)
    (W3 : Fin 18 → Fin 64 → EReal) (W4 W5 : Fin 64 → Fin 64 → EReal) (W6 : Fin 64 → Fin 3 → EReal)
    (x : Fin 32 → EReal) (v : Fin 3 → EReal) (k : EReal) : Fin 4 → EReal :=
  join (n := 4) rfl
    (colours k (density k (trunk W0 W1 W2 x)) (colourLogit W3 W4 W5 W6 v (trunk W0 W1 W2 x)))
    (fun _ : Fin 1 => density k (trunk W0 W1 W2 x) + tiny)

end Cert.RaySample

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibRowMaps.lean ====
/-
  Entrywise maps and column layouts, read along one row.

  An entrywise operation on `[R, n]` arrays (a product, sum, difference, quotient, negation, exponential, logistic) acts
  on every row by itself: row `p` of the result is that operation applied entry by entry to row `p` of the operands. A
  scalar repeated over the array gives a constant row. An `[R, 1]` column repeated along the columns of an `[R, n]` array
  gives, in row `p`, the column's entry of row `p` at every position; so does an `[R]` vector stood up as an `[R, 1]`
  column. All at the ideal instance, where the kernel's and the host's spellings of an operation are one function.
-/
import proofs.«143177_j70153995813580_1_alg».proof.Proof.LibRowwise
import proofs.«143177_j70153995813580_1_alg».proof.Proof.LibKeepdims

noncomputable section

namespace Idealize.ShloMosaic.Rowwise

open Idealize.ShloMosaic Idealize.ShloMosaic.ValueIdx

variable {R n : Nat} {φ : FTy}

/-! ## Entrywise operations -/

theorem row_mulf (A B : FVec Ideal ⟨2, ![R, n]⟩ φ) (p : Fin R) :
    row (mulf A B) p = fun q => row A p q * row B p q := rfl

theorem row_addf (A B : FVec Ideal ⟨2, ![R, n]⟩ φ) (p : Fin R) :
    row (addf A B) p = fun q => row A p q + row B p q := rfl

theorem row_subf (A B : FVec Ideal ⟨2, ![R, n]⟩ φ) (p : Fin R) :
    row (subf A B) p = fun q => row A p q - row B p q := rfl

/-- The kernel's quotient. -/
theorem row_divf (A B : FVec Ideal ⟨2, ![R, n]⟩ φ) (p : Fin R) :
    row (divf A B) p = fun q => Ideal.div (row A p q) (row B p q) := rfl

/-- The host's quotient: the same function. -/
theorem row_hostDivf (A B : FVec Ideal ⟨2, ![R, n]⟩ φ) (p : Fin R) :
    row (Host.divf A B) p = fun q => Ideal.div (row A p q) (row B p q) := rfl

theorem row_negf (A : FVec Ideal ⟨2, ![R, n]⟩ φ) (p : Fin R) :
    row (negf A) p = fun q => -(row A p q) := rfl

theorem row_hostNegf (A : FVec Ideal ⟨2, ![R, n]⟩ φ) (p : Fin R) :
    row (Host.negf A) p = fun q => -(row A p q) := rfl

theorem row_exp (A : FVec Ideal ⟨2, ![R, n]⟩ φ) (p : Fin R) :
    row (exp A) p = fun q => Ideal.exp (row A p q) := rfl

theorem row_hostExp (A : FVec Ideal ⟨2, ![R, n]⟩ φ) (p : Fin R) :
    row (Host.exp A) p = fun q => Ideal.exp (row A p q) := rfl

theorem row_logistic (A : FVec Ideal ⟨2, ![R, n]⟩ φ) (p : Fin R) :
    row (logistic A) p = fun q => Ideal.logistic (row A p q) := rfl

/-! ## Constant rows -/

/-- A scalar repeated over the array. -/
theorem row_broadcast (z : Ideal φ) (p : Fin R) : row (broadcast ⟨2, ![R, n]⟩ z) p = fun _ => z := rfl

/-- A rank-0 constant laid over the array, the host's spelling of the same. -/
theorem row_scalarConstant (b : BitVec 32) (h : (⟨0, ![]⟩ : Shape).BroadcastsInDim ⟨2, ![R, n]⟩ ![]) (p : Fin R) :
    row (broadcastInDim ⟨2, ![R, n]⟩ ![] h (constant (F := Ideal) ⟨0, ![]⟩ .f32 b)) p = fun _ => Ideal.ofBits .f32 b := rfl

/-! ## A column repeated along the columns -/

/-- The kernel's broadcast of an `[R, 1]` column to `[R, n]`: row `p` holds the column's entry of row `p` throughout. -/
theorem row_broadcastTo_column (v : (⟨2, ![R, 1]⟩ : Shape).Idx → EReal) (h : (⟨2, ![R, 1]⟩ : Shape).Broadcasts ⟨2, ![R, n]⟩)
    (p : Fin R) : row (broadcastTo ⟨2, ![R, n]⟩ v h) p = fun _ => row v p 0 :=
  funext fun q => Keepdims.broadcastTo_a1_ab_apply v h p q

/-- The host's broadcast of an `[R, 1]` column to `[R, n]`, both axes kept in place. -/
theorem row_broadcastInDim_column (v : (⟨2, ![R, 1]⟩ : Shape).Idx → EReal)
    (h : (⟨2, ![R, 1]⟩ : Shape).BroadcastsInDim ⟨2, ![R, n]⟩ ![0, 1]) (p : Fin R) :
    row (broadcastInDim ⟨2, ![R, n]⟩ ![0, 1] h v) p = fun _ => row v p 0 := by
  funext q
  show broadcastInDim ⟨2, ![R, n]⟩ ![0, 1] h v (ix2 p q) = v (ix2 p 0)
  refine broadcastInDim_apply ![0, 1] h v (ix2 p q) (ix2 p 0) fun a => ?_
  match a with
  | ⟨0, _⟩ =>
    show p.val = if R = 1 then 0 else p.val
    split
    · have := p.isLt; omega
    · rfl
  | ⟨1, _⟩ => rfl

/-- An `[R]` vector stood up as an `[R, 1]` column: row `p` holds the vector's entry `p`. -/
theorem row_vector_as_column (x : (⟨1, ![R]⟩ : Shape).Idx → EReal)
    (h : (⟨1, ![R]⟩ : Shape).BroadcastsInDim ⟨2, ![R, 1]⟩ ![0]) (p : Fin R) :
    row (broadcastInDim ⟨2, ![R, 1]⟩ ![0] h x) p = fun _ => x (ix1 p) := by
  funext q
  show broadcastInDim ⟨2, ![R, 1]⟩ ![0] h x (ix2 p q) = x (ix1 p)
  refine broadcastInDim_apply ![0] h x (ix2 p q) (ix1 p) fun a => ?_
  match a with
  | ⟨0, _⟩ =>
    show p.val = if R = 1 then 0 else p.val
    split
    · have := p.isLt; omega
    · rfl

end Idealize.ShloMosaic.Rowwise

end
-- ==== Proof.KernelRow.lean ====
/-
  The kernel's body, read one row at a time.

  The body works on a block of 2048 samples: blocks of position features, view features and keep weights, and the seven
  weight matrices whole. Every operation in it is either a dense layer, an entrywise map, a block of columns, a side by
  side join, or a column repeated along the columns: each acts on a row of the block by itself. So row `p` of the block
  it stores is the sample function (`Cert.RaySample.sample`) of row `p` of the feature blocks, the keep weight of row `p`,
  and the weight matrices. Narrowing to bf16 before each product does nothing at the ideal values.
-/
import proofs.«143177_j70153995813580_1_alg».proof.Proof.Gen.KernelIdeal.Skeleton
import proofs.«143177_j70153995813580_1_alg».proof.Proof.Sample
import proofs.«143177_j70153995813580_1_alg».proof.Proof.LibRowMaps

noncomputable section

namespace Cert.KernelIdeal.RowValue

open Cert.KernelIdeal Cert.KernelIdeal.Gen Idealize.ShloMosaic Idealize.ShloMosaic.ValueIdx Idealize.ShloMosaic.Rowwise
open Cert.RaySample

/-! ## The five products are plain matrix products -/

theorem dot_32_64 : dot_S2048x32_S32x64_S2048x64_1_0_0_1_n_n = DotDims.plain 2048 32 64 := rfl
theorem dot_64_64 : dot_S2048x64_S64x64_S2048x64_1_0_0_1_n_n = DotDims.plain 2048 64 64 := rfl
theorem dot_64_17 : dot_S2048x64_S64x17_S2048x17_1_0_0_1_n_n = DotDims.plain 2048 64 17 := rfl
theorem dot_18_64 : dot_S2048x18_S18x64_S2048x64_1_0_0_1_n_n = DotDims.plain 2048 18 64 := rfl
theorem dot_64_3 : dot_S2048x64_S64x3_S2048x3_1_0_0_1_n_n = DotDims.plain 2048 64 3 := rfl

/-! ## The density net -/

/-- Row `p` of the density net's 17 outputs is the density net of row `p` of the position block. -/
theorem row_trunk (x0 : Vec Ideal S2048x32 .f32) (x3 : Vec Ideal S32x64 .f32) (x4 : Vec Ideal S64x64 .f32)
    (x5 : Vec Ideal S64x17 .f32) (p : Fin 2048) :
    row (k0_pay2 (F := Ideal) x0 x3 x4 x5) p = trunk (mat x3) (mat x4) (mat x5) (row x0 p) := by
  unfold k0_pay2 trunk
  dsimp only
  rw [dot_64_17, row_matmul, row_truncf, mat_truncf, row_maximumf_broadcast,
    dot_64_64, row_matmul, row_truncf, mat_truncf, row_maximumf_broadcast,
    dot_32_64, row_matmul, row_truncf, mat_truncf]
  rfl

/-- The kernel writes `-|d|` as `0 - |d|`: the same number. -/
theorem z0_sub (y : EReal) : z0 - y = -y := by
  unfold z0
  rw [Ideal.ofBits_zero_f32, zero_sub]

/-- The kernel's spelling of `log (1 + e^s)`, entry by entry, is the sample's. -/
theorem softplus_kernel (s : EReal) :
    Scalar.select (Ideal.cmp .one (s - z0) (s - z0)) (s + z0)
      (max s z0 + Ideal.log1p (Ideal.exp (z0 - max (s - z0) (-(s - z0))))) = softplus s := by
  unfold softplus
  rw [z0_sub]
  rfl

/-- The unmasked density column: at row `p` it is `log (1 + e^s)` of the first density-net output of row `p`. -/
theorem density_apply (x0 : Vec Ideal S2048x32 .f32) (x3 : Vec Ideal S32x64 .f32) (x4 : Vec Ideal S64x64 .f32)
    (x5 : Vec Ideal S64x17 .f32) (p : Fin 2048) (u : Fin 1) :
    k0_pay3 (F := Ideal) x0 x3 x4 x5 (ix2 p u) = softplus (trunk (mat x3) (mat x4) (mat x5) (row x0 p) 0) := by
  have hs : extractStridedSlice S2048x1 ![0, 0] (k0_pay2 (F := Ideal) x0 x3 x4 x5) slices_S2048x17_o0_0_S2048x1 (ix2 p u)
      = trunk (mat x3) (mat x4) (mat x5) (row x0 p) 0 := by
    have h := congrFun (row_slice 0 (k0_pay2 (F := Ideal) x0 x3 x4 x5) slices_S2048x17_o0_0_S2048x1 p) u
    rw [row_trunk] at h
    obtain rfl : u = 0 := Subsingleton.elim _ _
    exact h
  refine Eq.trans ?_ (softplus_kernel _)
  rw [← hs]
  rfl

/-! ## The colour net's first layer -/

/-- Row `p` of the colour net's first product: the view features of row `p` and the last fifteen density-net outputs of
    row `p`, end to end, times the first colour matrix. -/
theorem row_colour0 (x0 : Vec Ideal S2048x32 .f32) (x3 : Vec Ideal S32x64 .f32) (x4 : Vec Ideal S64x64 .f32)
    (x5 : Vec Ideal S64x17 .f32) (x1 : Vec Ideal S2048x3 .f32) (x6 : Vec Ideal S18x64 .f32) (p : Fin 2048) :
    row (k0_pay4 (F := Ideal) x0 x3 x4 x5 x1 x6) p
      = dense (join (n := 18) rfl (row x1 p) (cols 2 15 (by decide) (trunk (mat x3) (mat x4) (mat x5) (row x0 p)))) (mat x6) := by
  unfold k0_pay4
  dsimp only
  rw [dot_18_64, row_matmul, row_truncf, mat_truncf, row_concat, row_slice, row_trunk]

/-! ## The rest of the colour net and the blend -/

/-- Row `p` of the stored block, from the unmasked density column `d`, the colour net's first product `c`, the last three
    colour matrices and the keep-weight column `k`. -/
theorem row_blend (d : FVec Ideal S2048x1 .f32) (c : FVec Ideal S2048x64 .f32) (x7 x8 : Vec Ideal S64x64 .f32)
    (x9 : Vec Ideal S64x3 .f32) (k : Vec Ideal S2048x1 .f32) (p : Fin 2048) :
    row (k0_pay1 (F := Ideal) d c x7 x8 x9 k) p
      = join (n := 4) rfl
          (colours (k (ix2 p 0)) (d (ix2 p 0) * k (ix2 p 0))
            (dense (floorAt z0 (dense (floorAt z0 (dense (floorAt z0 (row c p)) (mat x7))) (mat x8))) (mat x9)))
          (fun _ : Fin 1 => d (ix2 p 0) * k (ix2 p 0) + tiny) := by
  unfold k0_pay1
  dsimp only
  rw [row_concat, row_mulf, row_broadcastTo_column, row_divf, row_mulf, row_addf, row_mulf, row_broadcast,
    row_mulf, row_logistic, row_broadcastTo_column, row_shapeCast_self,
    dot_64_3, row_matmul, row_truncf, mat_truncf, row_maximumf_broadcast,
    dot_64_64, row_matmul, row_truncf, mat_truncf, row_maximumf_broadcast,
    row_matmul, row_truncf, mat_truncf, row_maximumf_broadcast]
  refine congrArg₂ (join (n := 4) rfl) (funext fun q => rfl) (funext fun u => ?_)
  obtain rfl : u = 0 := Subsingleton.elim _ _
  rfl

/-! ## The whole body -/

/-- Row `p` of the block the body stores is the sample function of row `p` of its input blocks. -/
theorem row_body (x0 : Vec Ideal S2048x32 .f32) (x1 : Vec Ideal S2048x3 .f32) (x2 : Vec Ideal S2048x1 .f32)
    (x3 : Vec Ideal S32x64 .f32) (x4 : Vec Ideal S64x64 .f32) (x5 : Vec Ideal S64x17 .f32) (x6 : Vec Ideal S18x64 .f32)
    (x7 x8 : Vec Ideal S64x64 .f32) (x9 : Vec Ideal S64x3 .f32) (p : Fin 2048) :
    row (k0_pay1 (F := Ideal) (k0_pay3 x0 x3 x4 x5) (k0_pay4 x0 x3 x4 x5 x1 x6) x7 x8 x9 x2) p
      = sample (mat x3) (mat x4) (mat x5) (mat x6) (mat x7) (mat x8) (mat x9) (row x0 p) (row x1 p) (x2 (ix2 p 0)) := by
  rw [row_blend, row_colour0, density_apply]
  rfl

end Cert.KernelIdeal.RowValue

end
-- ==== Proof.SampleArray.lean ====
/-
  An array of samples: the result array both programs end with.

  The programs take 2097152 samples, one per row: a `[2097152, 32]` array of position features, a `[2097152, 3]` array of
  view features, one keep weight per row, and the seven weight matrices. The result is the `[2097152, 4]` array whose row
  `r` is the sample function of row `r`. The keep weights come as a function of the row number, since one program holds
  them as a vector and the other as a one-column array.
-/
import proofs.«143177_j70153995813580_1_alg».proof.Proof.Sample

noncomputable section

namespace Cert.RaySample

open Idealize.ShloMosaic Idealize.ShloMosaic.Rowwise

/-- The result array: entry `(r, q)` is entry `q` of the sample function of row `r`. -/
def field (X : (⟨2, ![2097152, 32]⟩ : Shape).Idx → EReal) (V : (⟨2, ![2097152, 3]⟩ : Shape).Idx → EReal)
    (k : Fin 2097152 → EReal)
    (W0 : (⟨2, ![32, 64]⟩ : Shape).Idx → EReal) (W1 : (⟨2, ![64, 64]⟩ : Shape).Idx → EReal)
    (W2 : (⟨2, ![64, 17]⟩ : Shape).Idx → EReal) (W3 : (⟨2, ![18, 64]⟩ : Shape).Idx → EReal)
    (W4 W5 : (⟨2, ![64, 64]⟩ : Shape).Idx → EReal) (W6 : (⟨2, ![64, 3]⟩ : Shape).Idx → EReal) :
    (⟨2, ![2097152, 4]⟩ : Shape).Idx → EReal :=
  fun i => sample (mat W0) (mat W1) (mat W2) (mat W3) (mat W4) (mat W5) (mat W6) (row X (i 0)) (row V (i 0)) (k (i 0)) (i 1)

/-- Entry `(r, q)` of the result array. -/
theorem field_apply (X : (⟨2, ![2097152, 32]⟩ : Shape).Idx → EReal) (V : (⟨2, ![2097152, 3]⟩ : Shape).Idx → EReal)
    (k : Fin 2097152 → EReal)
    (W0 : (⟨2, ![32, 64]⟩ : Shape).Idx → EReal) (W1 : (⟨2, ![64, 64]⟩ : Shape).Idx → EReal)
    (W2 : (⟨2, ![64, 17]⟩ : Shape).Idx → EReal) (W3 : (⟨2, ![18, 64]⟩ : Shape).Idx → EReal)
    (W4 W5 : (⟨2, ![64, 64]⟩ : Shape).Idx → EReal) (W6 : (⟨2, ![64, 3]⟩ : Shape).Idx → EReal)
    (r : Fin 2097152) (q : Fin 4) :
    field X V k W0 W1 W2 W3 W4 W5 W6 (ValueIdx.ix2 r q)
      = sample (mat W0) (mat W1) (mat W2) (mat W3) (mat W4) (mat W5) (mat W6) (row X r) (row V r) (k r) q := rfl

end Cert.RaySample

end
-- ==== Proof.KernelArray.lean ====
/-
  From blocks to the array: what the kernel's result array holds after the run.

  The grid has 1024 points; point `t` works on rows `2048 t … 2048 t + 2047`: its position, view and keep-weight blocks
  are those rows of their arrays, its result block those rows of the result array, and every weight window holds its
  whole matrix at every point. The body's block is, row by row, the sample function of the input blocks' rows
  (`RowValue.row_body`), so what point `t` writes back is block `t` of ONE array, the array of samples
  (`Cert.RaySample.field`) of the arrays as the region finds them. The 1024 blocks tile the result array (row `r` lies in
  block `r / 2048`), so the array ends holding the array of samples. The keep weights reach the region as a one-column
  array, the host's reshape of the keep vector; entry `(r, 0)` of it is entry `r` of the vector.
-/
import proofs.«143177_j70153995813580_1_alg».proof.Proof.Gen.KernelIdeal.Value
import proofs.«143177_j70153995813580_1_alg».proof.Proof.KernelRow
import proofs.«143177_j70153995813580_1_alg».proof.Proof.SampleArray
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.Rowwise Cert.RaySample
open Idealize.ShloMosaic.Pipeline (Dat)

variable (m : (ℓ : Loc nD τ sig) → Buf (Elt Ideal) ℓ) (ρ : Dev nD → PrngReg)

/-! ## Where each window's block sits -/

theorem hz : (![0, 0] : Fin 2 → Nat) = fun _ => 0 := funext fun a => by fin_cases a <;> rfl

/-- The row-blocked windows (positions, views, keep weights, result) are at block `(t, 0)` at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

/-- The weight windows are at block `(0, 0)` at every point. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem lt_points (t : Fin cfg0.N) : t.val < 1024 := by
  have h := t.isLt
  have hN : cfg0.N = 1024 := N_0
  omega

/-- Row `p` of point `t`'s blocks is row `2048 t + p` of the arrays. -/
def grow (t : Fin cfg0.N) (p : Fin 2048) : Fin 2097152 :=
  ⟨t.val * 2048 + p.val, by have := lt_points t; have := p.isLt; omega⟩

/-! ## The input blocks, at their literal types -/

abbrev xblk (c : Dev nD) (t : Fin cfg0.N) : Vec Ideal S2048x32 .f32 := iblk m c 0 t
abbrev vblk (c : Dev nD) (t : Fin cfg0.N) : Vec Ideal S2048x3 .f32 := iblk m c 1 t
abbrev kblk (c : Dev nD) (t : Fin cfg0.N) : Vec Ideal S2048x1 .f32 := iblk m c 2 t
abbrev wblk3 (c : Dev nD) (t : Fin cfg0.N) : Vec Ideal S32x64 .f32 := iblk m c 3 t
abbrev wblk4 (c : Dev nD) (t : Fin cfg0.N) : Vec Ideal S64x64 .f32 := iblk m c 4 t
abbrev wblk5 (c : Dev nD) (t : Fin cfg0.N) : Vec Ideal S64x17 .f32 := iblk m c 5 t
abbrev wblk6 (c : Dev nD) (t : Fin cfg0.N) : Vec Ideal S18x64 .f32 := iblk m c 6 t
abbrev wblk7 (c : Dev nD) (t : Fin cfg0.N) : Vec Ideal S64x64 .f32 := iblk m c 7 t
abbrev wblk8 (c : Dev nD) (t : Fin cfg0.N) : Vec Ideal S64x64 .f32 := iblk m c 8 t
abbrev wblk9 (c : Dev nD) (t : Fin cfg0.N) : Vec Ideal S64x3 .f32 := iblk m c 9 t

/-- Row `p` of the position block at point `t` is row `2048 t + p` of the position array. -/
theorem rows_x (c : Dev nD) (t : Fin cfg0.N) (p : Fin 2048) :
    row (xblk m c t) p = row (V m c main_arg0 : S2097152x32.Idx → EReal) (grow t p) := by
  funext k
  show V m c main_arg0 (((cfg0.win 0).blk t).view.emb (ix2 p k)) = V m c main_arg0 (ix2 (grow t p) k)
  obtain ⟨e0, e1, -⟩ := idx_rows t
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 32 + 1 * k.val = k.val; rw [e1]; omega

/-- Row `p` of the view block at point `t` is row `2048 t + p` of the view array. -/
theorem rows_v (c : Dev nD) (t : Fin cfg0.N) (p : Fin 2048) :
    row (vblk m c t) p = row (V m c main_arg1 : S2097152x3.Idx → EReal) (grow t p) := by
  funext k
  show V m c main_arg1 (((cfg0.win 1).blk t).view.emb (ix2 p k)) = V m c main_arg1 (ix2 (grow t p) k)
  obtain ⟨-, -, e0, e1, -⟩ := idx_rows t
  refine congrArg _ (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 3 + 1 * k.val = k.val; rw [e1]; omega

/-- Entry `p` of the keep-weight block at point `t` is entry `2048 t + p` of the keep-weight column. -/
theorem rows_k (c : Dev nD) (t : Fin cfg0.N) (p : Fin 2048) :
    kblk m c t (ix2 p 0) = (V m c main_v0 : S2097152x1.Idx → EReal) (ix2 (grow t p) 0) := by
  show V m c main_v0 (((cfg0.win 2).blk t).view.emb (ix2 p 0)) = V m c main_v0 (ix2 (grow t p) 0)
  obtain ⟨-, -, -, -, e0, e1, -⟩ := idx_rows t
  refine congrArg _ (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 1 + 1 * 0 = 0; rw [e1]

/-- Window 3 holds its whole matrix at every point. -/
theorem weight3 (c : Dev nD) (t : Fin cfg0.N) : mat (wblk3 m c t) = mat (V m c main_arg3 : S32x64.Idx → EReal) := by
  funext k j
  show V m c main_arg3 (((cfg0.win 3).blk t).view.emb (ix2 k j)) = V m c main_arg3 (ix2 k j)
  obtain ⟨e0, e1, -⟩ := idx_weights t
  refine congrArg _ (funext fun a => Fin.ext ?_)
  match a with
  | ⟨0, _⟩ => show win0_3.index t (0 : Fin 2) * 32 + 1 * k.val = k.val; rw [e0]; omega
  | ⟨1, _⟩ => show win0_3.index t (1 : Fin 2) * 64 + 1 * j.val = j.val; rw [e1]; omega

/-- Window 4 holds its whole matrix at every point. -/
theorem weight4 (c : Dev nD) (t : Fin cfg0.N) : mat (wblk4 m c t) = mat (V m c main_arg4 : S64x64.Idx → EReal) := by
  funext k j
  show V m c main_arg4 (((cfg0.win 4).blk t).view.emb (ix2 k j)) = V m c main_arg4 (ix2 k j)
  obtain ⟨-, -, e0, e1, -⟩ := idx_weights t
  refine congrArg _ (funext fun a => Fin.ext ?_)
  match a with
  | ⟨0, _⟩ => show win0_4.index t (0 : Fin 2) * 64 + 1 * k.val = k.val; rw [e0]; omega
  | ⟨1, _⟩ => show win0_4.index t (1 : Fin 2) * 64 + 1 * j.val = j.val; rw [e1]; omega

/-- Window 5 holds its whole matrix at every point. -/
theorem weight5 (c : Dev nD) (t : Fin cfg0.N) : mat (wblk5 m c t) = mat (V m c main_arg5 : S64x17.Idx → EReal) := by
  funext k j
  show V m c main_arg5 (((cfg0.win 5).blk t).view.emb (ix2 k j)) = V m c main_arg5 (ix2 k j)
  obtain ⟨-, -, -, -, e0, e1, -⟩ := idx_weights t
  refine congrArg _ (funext fun a => Fin.ext ?_)
  match a with
  | ⟨0, _⟩ => show win0_5.index t (0 : Fin 2) * 64 + 1 * k.val = k.val; rw [e0]; omega
  | ⟨1, _⟩ => show win0_5.index t (1 : Fin 2) * 17 + 1 * j.val = j.val; rw [e1]; omega

/-- Window 6 holds its whole matrix at every point. -/
theorem weight6 (c : Dev nD) (t : Fin cfg0.N) : mat (wblk6 m c t) = mat (V m c main_arg6 : S18x64.Idx → EReal) := by
  funext k j
  show V m c main_arg6 (((cfg0.win 6).blk t).view.emb (ix2 k j)) = V m c main_arg6 (ix2 k j)
  obtain ⟨-, -, -, -, -, -, e0, e1, -⟩ := idx_weights t
  refine congrArg _ (funext fun a => Fin.ext ?_)
  match a with
  | ⟨0, _⟩ => show win0_6.index t (0 : Fin 2) * 18 + 1 * k.val = k.val; rw [e0]; omega
  | ⟨1, _⟩ => show win0_6.index t (1 : Fin 2) * 64 + 1 * j.val = j.val; rw [e1]; omega

/-- Window 7 holds its whole matrix at every point. -/
theorem weight7 (c : Dev nD) (t : Fin cfg0.N) : mat (wblk7 m c t) = mat (V m c main_arg7 : S64x64.Idx → EReal) := by
  funext k j
  show V m c main_arg7 (((cfg0.win 7).blk t).view.emb (ix2 k j)) = V m c main_arg7 (ix2 k j)
  obtain ⟨-, -, -, -, -, -, -, -, e0, e1, -⟩ := idx_weights t
  refine congrArg _ (funext fun a => Fin.ext ?_)
  match a with
  | ⟨0, _⟩ => show win0_7.index t (0 : Fin 2) * 64 + 1 * k.val = k.val; rw [e0]; omega
  | ⟨1, _⟩ => show win0_7.index t (1 : Fin 2) * 64 + 1 * j.val = j.val; rw [e1]; omega

/-- Window 8 holds its whole matrix at every point. -/
theorem weight8 (c : Dev nD) (t : Fin cfg0.N) : mat (wblk8 m c t) = mat (V m c main_arg8 : S64x64.Idx → EReal) := by
  funext k j
  show V m c main_arg8 (((cfg0.win 8).blk t).view.emb (ix2 k j)) = V m c main_arg8 (ix2 k j)
  obtain ⟨-, -, -, -, -, -, -, -, -, -, e0, e1, -⟩ := idx_weights t
  refine congrArg _ (funext fun a => Fin.ext ?_)
  match a with
  | ⟨0, _⟩ => show win0_8.index t (0 : Fin 2) * 64 + 1 * k.val = k.val; rw [e0]; omega
  | ⟨1, _⟩ => show win0_8.index t (1 : Fin 2) * 64 + 1 * j.val = j.val; rw [e1]; omega

/-- Window 9 holds its whole matrix at every point. -/
theorem weight9 (c : Dev nD) (t : Fin cfg0.N) : mat (wblk9 m c t) = mat (V m c main_arg9 : S64x3.Idx → EReal) := by
  funext k j
  show V m c main_arg9 (((cfg0.win 9).blk t).view.emb (ix2 k j)) = V m c main_arg9 (ix2 k j)
  obtain ⟨-, -, -, -, -, -, -, -, -, -, -, -, e0, e1⟩ := idx_weights t
  refine congrArg _ (funext fun a => Fin.ext ?_)
  match a with
  | ⟨0, _⟩ => show win0_9.index t (0 : Fin 2) * 64 + 1 * k.val = k.val; rw [e0]; omega
  | ⟨1, _⟩ => show win0_9.index t (1 : Fin 2) * 3 + 1 * j.val = j.val; rw [e1]; omega

/-- Entry `(p, q)` of the result block at point `t` is entry `(2048 t + p, q)` of the result array. -/
theorem emb_out (t : Fin cfg0.N) (p : Fin 2048) (q : Fin 4) :
    ((cfg0.win 10).blk t).view.emb (ix2 p q) = (ix2 (grow t p) q : S2097152x4.Idx) := by
  obtain ⟨-, -, -, -, -, -, e0, e1⟩ := idx_rows t
  funext a
  apply Fin.ext
  match a with
  | ⟨0, _⟩ => show win0_10.index t (0 : Fin 2) * 2048 + 1 * p.val = t.val * 2048 + p.val; rw [e0]; omega
  | ⟨1, _⟩ => show win0_10.index t (1 : Fin 2) * 4 + 1 * q.val = q.val; rw [e1]; omega

/-! ## What a point writes back -/

/-- The array of samples of the arrays as the region finds them. -/
def fieldAt (c : Dev nD) : S2097152x4.Idx → EReal :=
  field (V m c main_arg0) (V m c main_arg1) (fun r => (V m c main_v0 : S2097152x1.Idx → EReal) (ix2 r 0))
    (V m c main_arg3) (V m c main_arg4) (V m c main_arg5) (V m c main_arg6) (V m c main_arg7) (V m c main_arg8)
    (V m c main_arg9)

/-- What point `t` writes back is block `t` of the array of samples. -/
theorem flushed_eq (c : Dev nD) (t : Fin cfg0.N) :
    (dats m 0 c).flushed 10 t = ((cfg0.win 10).blk t).view.read (Elt Ideal) (fieldAt m c) := by
  rw [Value.flushed10]
  unfold out0_10
  rw [View.canon_unit_zero hz]
  simp only [View.ld_unit_zero (S := S2048x32) hz, View.ld_unit_zero (S := S2048x3) hz, View.ld_unit_zero (S := S2048x1) hz,
    View.ld_unit_zero (S := S32x64) hz, View.ld_unit_zero (S := S64x64) hz, View.ld_unit_zero (S := S64x17) hz,
    View.ld_unit_zero (S := S18x64) hz, View.ld_unit_zero (S := S64x3) hz]
  funext j
  obtain ⟨p, q, rfl⟩ : ∃ (p : Fin 2048) (q : Fin 4), j = ix2 p q := ⟨j 0, j 1, eq_ix2 j⟩
  show k0_pay1 (F := Ideal) (k0_pay3 (xblk m c t) (wblk3 m c t) (wblk4 m c t) (wblk5 m c t))
      (k0_pay4 (xblk m c t) (wblk3 m c t) (wblk4 m c t) (wblk5 m c t) (vblk m c t) (wblk6 m c t))
      (wblk7 m c t) (wblk8 m c t) (wblk9 m c t) (kblk m c t) (ix2 p q)
    = fieldAt m c (((cfg0.win 10).blk t).view.emb (ix2 p q))
  refine (congrFun (RowValue.row_body (xblk m c t) (vblk m c t) (kblk m c t) (wblk3 m c t) (wblk4 m c t) (wblk5 m c t)
    (wblk6 m c t) (wblk7 m c t) (wblk8 m c t) (wblk9 m c t) p) q).trans ?_
  rw [emb_out, rows_x, rows_v, rows_k, weight3, weight4, weight5, weight6, weight7, weight8, weight9]
  rfl

/-! ## The blocks tile the result array -/

/-- An index is in point `t`'s result block iff each coordinate is in the block's range on its axis. -/
theorem mem_blk (t : Fin cfg0.N) (i : S2097152x4.Idx) :
    i ∈ ((cfg0.win 10).blk t).view.set ↔ ∀ a : Fin 2, win0_10.index t a * S2048x4.size a ≤ (i a).val
      ∧ (i a).val < win0_10.index t a * S2048x4.size a + S2048x4.size a := by
  show i ∈ ((View.whole main_v1).slice (win0_10.rect t)).set ↔ _
  rw [View.set_slice_whole, Rect.mem_set_unit]
  exact Iff.rfl

/-- Row `r` of the result array lies in the block of point `r / 2048`. -/
theorem cover (i : S2097152x4.Idx) :
    ∃ t : Fin cfg0.N, (cfg0.win 10).flush t = true ∧ i ∈ ((cfg0.win 10).blk t).view.set := by
  have hi0 : (i 0).val < 2097152 := (i 0).isLt
  have hi1 : (i 1).val < 4 := (i 1).isLt
  have hN : cfg0.N = 1024 := N_0
  have hlt : (i 0).val / 2048 < cfg0.N := by rw [hN]; omega
  obtain ⟨-, -, -, -, -, -, e0, e1⟩ := idx_rows ⟨(i 0).val / 2048, hlt⟩
  refine ⟨⟨(i 0).val / 2048, hlt⟩, flush0_10 _, ?_⟩
  rw [mem_blk]
  intro a
  match a with
  | ⟨0, _⟩ =>
    show win0_10.index ⟨(i 0).val / 2048, hlt⟩ (0 : Fin 2) * 2048 ≤ (i 0).val
      ∧ (i 0).val < win0_10.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_10.index ⟨(i 0).val / 2048, hlt⟩ (1 : Fin 2) * 4 ≤ (i 1).val
      ∧ (i 1).val < win0_10.index ⟨(i 0).val / 2048, hlt⟩ (1 : Fin 2) * 4 + 4
    rw [e1]
    omega

/-- The result array after the run is the array of samples of the arrays as the region finds them. -/
theorem final (c : Dev nD) : (dats m 0 c).arrAt 10 cfg0.N = fieldAt m c :=
  (dats m 0 c).arrAt_eq_of_cover 10 (fieldAt m c) (fun t _ => flushed_eq m c t) cover

/-! ## The arrays the region finds are the arguments -/

/-- The keep-weight column the region finds is the host's reshape of the keep vector. -/
theorem keep_column (c : Dev nD) :
    (V m c main_v0 : S2097152x1.Idx → EReal)
      = shapeCast S2097152x1 (m ((c : Thread nD τ).loc main_arg2)) shapeCasts_S2097152_S2097152x1 := by
  dsimp only [Gen.V, Gen.hostOps0]
  after_results
  rfl

/-- The array of samples of the arrays the region finds is the array of samples of the arguments. -/
theorem fieldAt_eq (c : Dev nD) :
    fieldAt m c = field (m ((c : Thread nD τ).loc main_arg0)) (m ((c : Thread nD τ).loc main_arg1))
      (fun r => (m ((c : Thread nD τ).loc main_arg2) : S2097152.Idx → EReal) (ix1 r))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  have hk : (fun r : Fin 2097152 => (V m c main_v0 : S2097152x1.Idx → EReal) (ix2 r 0))
      = fun r => (m ((c : Thread nD τ).loc main_arg2) : S2097152.Idx → EReal) (ix1 r) := by
    funext r
    rw [keep_column]
    exact Keepdims.shapeCast_a_a1_apply _ shapeCasts_S2097152_S2097152x1 r 0
  unfold fieldAt
  rw [hk, V_main_arg0, V_main_arg1, V_main_arg3, V_main_arg4, V_main_arg5, V_main_arg6, V_main_arg7, V_main_arg8,
    V_main_arg9]

/-! ## The run, read -/

/-- Every weakly fair execution of the idealized kernel ends with the result array at the array of samples of the
    arguments, the arguments unchanged. -/
theorem run : θ_run defs (onTc (τ := τ) (main (F := Ideal))) ⟨m, fun _ => 0, ρ⟩ fun r => ∀ c : Dev nD,
      r.2.mem ((c : Thread nD τ).loc main_v1) = field (m ((c : Thread nD τ).loc main_arg0)) (m ((c : Thread nD τ).loc main_arg1))
        (fun r => (m ((c : Thread nD τ).loc main_arg2) : S2097152.Idx → EReal) (ix1 r))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (fieldAt_eq m c)), (h c).2⟩)
    (Value.run_blocks m ρ)

end Cert.KernelIdeal.ArrayValue

end
-- ==== Proof.LibColumnToVector.lean ====
/-
  A column recast as a vector, read at an index: an [a, 1] array cast to [a] reads, at i, the column's entry of row i.
  (The converse, [a] → [a, 1], and the row forms [a] → [1, a], [1, a] → [a] are elsewhere; this is the one missing.)
-/
import Idealize.ShloMosaic.Lib.Pipeline.Value
import Idealize.ShloMosaic.Lib.ValueIdx

noncomputable section

namespace Idealize.ShloMosaic.ColumnVector

open Idealize.ShloMosaic Idealize.ShloMosaic.ValueIdx

variable {α : Type}

/-- An `[a, 1]` column cast to `[a]` reads, at `i`, the operand at `(i, 0)`: both positions are the i-th in row-major order. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnVector

end
-- ==== Proof.ReferenceRow.lean ====
/-
  The reference, read one row at a time.

  The reference handles all 2097152 samples at once, with the density and the keep weights as vectors of length 2097152
  that it stands up as columns where it needs them. Its operations, stage by stage, are the same dense layers, entrywise
  maps, column blocks and joins as the kernel's, so row `r` of its result is the sample function
  (`Cert.RaySample.sample`) of row `r` of the two feature arrays, the keep weight `r`, and the weight matrices. Its logistic
  is spelt `1 / (1 + e^{-y})` with the float32 word of one, which is the number one.
-/
import proofs.«143177_j70153995813580_1_alg».proof.Proof.Gen.ReferenceIdeal.Read
import proofs.«143177_j70153995813580_1_alg».proof.Proof.SampleArray
import proofs.«143177_j70153995813580_1_alg».proof.Proof.LibRowMaps
import proofs.«143177_j70153995813580_1_alg».proof.Proof.LibColumnToVector
import Idealize.ShloMosaic.Lib.IdealHost

noncomputable section

namespace Cert.ReferenceIdeal.RowValue

open Cert.ReferenceIdeal Cert.ReferenceIdeal.Gen Cert.ReferenceIdeal.Read
open Idealize.ShloMosaic Idealize.ShloMosaic.ValueIdx Idealize.ShloMosaic.Rowwise
open Cert.RaySample

/-! ## The five products are plain matrix products -/

theorem dot_32_64 : dot_S2097152x32_S32x64_S2097152x64_1_0_0_1_n_n = DotDims.plain 2097152 32 64 := rfl
theorem dot_64_64 : dot_S2097152x64_S64x64_S2097152x64_1_0_0_1_n_n = DotDims.plain 2097152 64 64 := rfl
theorem dot_64_17 : dot_S2097152x64_S64x17_S2097152x17_1_0_0_1_n_n = DotDims.plain 2097152 64 17 := rfl
theorem dot_18_64 : dot_S2097152x18_S18x64_S2097152x64_1_0_0_1_n_n = DotDims.plain 2097152 18 64 := rfl
theorem dot_64_3 : dot_S2097152x64_S64x3_S2097152x3_1_0_0_1_n_n = DotDims.plain 2097152 64 3 := rfl

/-! ## The density net -/

/-- Row `r` of the density net's 17 outputs is the density net of row `r` of the position array. -/
theorem row_trunk (x0 : (⟨S2097152x32, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (r : Fin 2097152) :
    row (val_main_v4 (F := Ideal) x0 x3 x4 x5) r = trunk (mat x3) (mat x4) (mat x5) (row x0 r) := by
  unfold val_main_v4 val_main_v3 val_main_call1_v0 val_main_call1_cst val_main_v2 val_main_v1 val_main_call0_v0
    val_main_call0_cst val_main_v0 trunk
  rw [dot_64_17, row_dotGeneral, row_maximumf_scalarConstant, dot_64_64, row_dotGeneral, row_maximumf_scalarConstant,
    dot_32_64, row_dotGeneral]
  rfl

/-- The first density-net output as a vector: entry `r` is the first output of row `r`. -/
theorem first_output (x0 : (⟨S2097152x32, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (r : Fin 2097152) :
    val_main_v6 (F := Ideal) x0 x3 x4 x5 (ix1 r) = trunk (mat x3) (mat x4) (mat x5) (row x0 r) 0 := by
  unfold val_main_v6 val_main_v5
  rw [ColumnVector.shapeCast_a1_a_apply]
  have h := congrFun (row_slice 0 (val_main_v4 (F := Ideal) x0 x3 x4 x5) slices_S2097152x17_S2097152x1_0_0 r) 0
  rw [row_trunk] at h
  exact h

/-- The unmasked density vector: entry `r` is `log (1 + e^s)` of the first density-net output of row `r`. -/
theorem density_apply (x0 : (⟨S2097152x32, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (r : Fin 2097152) :
    val_main_v7 (F := Ideal) x0 x3 x4 x5 (ix1 r) = softplus (trunk (mat x3) (mat x4) (mat x5) (row x0 r) 0) := by
  rw [← first_output]
  rfl

/-- The masked density plus the offset, entry `r`. -/
theorem total_apply (x0 : (⟨S2097152x32, .f32⟩ : BufTy).Contents (Elt Ideal)) (x2 : (⟨S2097152, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (r : Fin 2097152) :
    val_main_v28 (F := Ideal) x0 x2 x3 x4 x5 (ix1 r)
      = density (x2 (ix1 r)) (trunk (mat x3) (mat x4) (mat x5) (row x0 r)) + tiny := by
  unfold density
  rw [← density_apply]
  rfl

/-- The ratio of the masked density to that total, entry `r`. -/
theorem ratio_apply (x0 : (⟨S2097152x32, .f32⟩ : BufTy).Contents (Elt Ideal)) (x2 : (⟨S2097152, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (r : Fin 2097152) :
    val_main_v29 (F := Ideal) x0 x2 x3 x4 x5 (ix1 r)
      = Ideal.div (density (x2 (ix1 r)) (trunk (mat x3) (mat x4) (mat x5) (row x0 r)))
          (density (x2 (ix1 r)) (trunk (mat x3) (mat x4) (mat x5) (row x0 r)) + tiny) := by
  unfold density
  rw [← density_apply]
  rfl

/-! ## The colour net -/

/-- The reference's spelling of the logistic function, with the float32 word of one, is the logistic function. -/
theorem logistic_host (y : EReal) :
    Ideal.div (Ideal.ofBits .f32 0x3F800000#32) (Ideal.ofBits .f32 0x3F800000#32 + Ideal.exp (-y)) = Ideal.logistic y := by
  unfold Ideal.logistic
  rw [Ideal.ofBits_one_f32]

/-- Row `r` of the colour net's last product. -/
theorem row_logit (x0 : (⟨S2097152x32, .f32⟩ : BufTy).Contents (Elt Ideal)) (x1 : (⟨S2097152x3, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (x6 : (⟨S18x64, .f32⟩ : BufTy).Contents (Elt Ideal)) (x7 x8 : (⟨S64x64, .f32⟩ : BufTy).Contents (Elt Ideal)) (x9 : (⟨S64x3, .f32⟩ : BufTy).Contents (Elt Ideal)) (r : Fin 2097152) :
    row (val_main_v16 (F := Ideal) x0 x1 x3 x4 x5 x6 x7 x8 x9) r
      = colourLogit (mat x6) (mat x7) (mat x8) (mat x9) (row x1 r) (trunk (mat x3) (mat x4) (mat x5) (row x0 r)) := by
  unfold val_main_v16 val_main_v15 val_main_call5_v0 val_main_call5_cst val_main_v14 val_main_v13 val_main_call4_v0
    val_main_call4_cst val_main_v12 val_main_v11 val_main_call3_v0 val_main_call3_cst val_main_v10 val_main_v9 val_main_v8
    colourLogit
  rw [dot_64_3, row_dotGeneral, row_maximumf_scalarConstant, dot_64_64, row_dotGeneral, row_maximumf_scalarConstant,
    row_dotGeneral, row_maximumf_scalarConstant, dot_18_64, row_dotGeneral, row_concat, row_slice, row_trunk]
  rfl

/-! ## The result -/

/-- Row `r` of the reference's result is the sample function of row `r` of its arguments. -/
theorem row_result (x0 : (⟨S2097152x32, .f32⟩ : BufTy).Contents (Elt Ideal)) (x1 : (⟨S2097152x3, .f32⟩ : BufTy).Contents (Elt Ideal)) (x2 : (⟨S2097152, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (x6 : (⟨S18x64, .f32⟩ : BufTy).Contents (Elt Ideal)) (x7 x8 : (⟨S64x64, .f32⟩ : BufTy).Contents (Elt Ideal)) (x9 : (⟨S64x3, .f32⟩ : BufTy).Contents (Elt Ideal)) (r : Fin 2097152) :
    row (val_main_v34 (F := Ideal) x0 x1 x2 x3 x4 x5 x6 x7 x8 x9) r
      = sample (mat x3) (mat x4) (mat x5) (mat x6) (mat x7) (mat x8) (mat x9) (row x0 r) (row x1 r) (x2 (ix1 r)) := by
  unfold val_main_v34 val_main_v33 val_main_v32 val_main_v31 val_main_v30 val_main_v26 val_main_v25 val_main_v24
    val_main_v22 val_main_v21 val_main_cst_0 val_main_v20 val_main_v19 val_main_cst val_main_v18 val_main_v17
  rw [row_concat, row_mulf, row_broadcastInDim_column, row_vector_as_column, row_mulf, row_hostDivf, row_scalarConstant,
    row_addf, row_scalarConstant, row_hostExp, row_hostNegf, row_logit, row_broadcastInDim_column, row_vector_as_column,
    row_vector_as_column]
  refine congrArg₂ (join (n := 4) rfl) (funext fun q => ?_) (funext fun u => ?_)
  · show val_main_v29 (F := Ideal) x0 x2 x3 x4 x5 (ix1 r) * (Ideal.div (Ideal.ofBits .f32 0x3F800000#32)
        (Ideal.ofBits .f32 0x3F800000#32 + Ideal.exp (-(colourLogit (mat x6) (mat x7) (mat x8) (mat x9) (row x1 r)
          (trunk (mat x3) (mat x4) (mat x5) (row x0 r)) q))) * x2 (ix1 r)) = _
    rw [ratio_apply, logistic_host]
    rfl
  · exact total_apply x0 x2 x3 x4 x5 r

/-- The reference's result is the array of samples of its arguments. -/
theorem result_eq (x0 : (⟨S2097152x32, .f32⟩ : BufTy).Contents (Elt Ideal)) (x1 : (⟨S2097152x3, .f32⟩ : BufTy).Contents (Elt Ideal)) (x2 : (⟨S2097152, .f32⟩ : BufTy).Contents (Elt Ideal)) (x3 : (⟨S32x64, .f32⟩ : BufTy).Contents (Elt Ideal)) (x4 : (⟨S64x64, .f32⟩ : BufTy).Contents (Elt Ideal)) (x5 : (⟨S64x17, .f32⟩ : BufTy).Contents (Elt Ideal)) (x6 : (⟨S18x64, .f32⟩ : BufTy).Contents (Elt Ideal)) (x7 x8 : (⟨S64x64, .f32⟩ : BufTy).Contents (Elt Ideal)) (x9 : (⟨S64x3, .f32⟩ : BufTy).Contents (Elt Ideal)) :
    val_main_v34 (F := Ideal) x0 x1 x2 x3 x4 x5 x6 x7 x8 x9 = field x0 x1 (fun r => x2 (ix1 r)) x3 x4 x5 x6 x7 x8 x9 := by
  funext i
  obtain ⟨r, q, rfl⟩ : ∃ (r : Fin 2097152) (q : Fin 4), i = ix2 r q := ⟨i 0, i 1, eq_ix2 i⟩
  exact congrFun (row_result x0 x1 x2 x3 x4 x5 x6 x7 x8 x9 r) q

end Cert.ReferenceIdeal.RowValue

end
-- ==== Proof.lean ====
/-
  A fused radiance-field network on 2097152 ray samples, against its plain jnp reference, over the extended reals.

  Each sample (32 position features, 3 view features, one keep weight) goes through a density net of three dense layers
  to 17 numbers; the first gives the density `log (1 + e^s)`, masked by the keep weight; the last fifteen, with the view
  features, go through a colour net of four dense layers and a logistic to three colours, masked likewise; the result row
  is the three colours scaled by `σ / (σ + tiny)` and then `σ + tiny`. The kernel handles 2048 samples per grid point
  with the weight matrices resident, narrowing every product's operands to bf16 first; the reference handles all samples
  at once in float32.

  At the ideal values a change of float format is the identity and a product into a zero accumulator is the same sum as
  the host's product, so both programs compute, for every row, one and the same function of that row
  (`Cert.RaySample.sample`): the two differ only in tiling, in holding the density and the keep weights as vectors or as
  columns, in spelling `-|d|` as `0 - |d|`, and in spelling the logistic by its formula with the float32 word of one. No
  law that needs finite operands is used, so the precondition is never opened.

  * `Proof/Sample.lean`, `Proof/SampleArray.lean`: the function of one row, and the array of samples.
  * `Proof/KernelRow.lean`: the kernel's body, one row at a time, is that function.
  * `Proof/KernelArray.lean`: the 1024 blocks tile the result array, which therefore ends as the array of samples.
  * `Proof/ReferenceRow.lean`: the reference's stages, one row at a time, give the same array.
  * `Proof/Lib*.lean`: general lemmas on reading row-wise layers along one row.
-/
import proofs.«143177_j70153995813580_1_alg».proof.Defs
import proofs.«143177_j70153995813580_1_alg».proof.Proof.Gen.Kernel
import proofs.«143177_j70153995813580_1_alg».proof.Proof.Gen.Kernel.Skeleton
import proofs.«143177_j70153995813580_1_alg».proof.Proof.Gen.Kernel.Launch
import proofs.«143177_j70153995813580_1_alg».proof.Proof.Gen.Kernel.Points
import proofs.«143177_j70153995813580_1_alg».proof.Proof.Gen.Kernel.Frame
import proofs.«143177_j70153995813580_1_alg».proof.Proof.Gen.KernelIdeal
import proofs.«143177_j70153995813580_1_alg».proof.Proof.Gen.KernelIdeal.Skeleton
import proofs.«143177_j70153995813580_1_alg».proof.Proof.Gen.KernelIdeal.Launch
import proofs.«143177_j70153995813580_1_alg».proof.Proof.Gen.KernelIdeal.Points
import proofs.«143177_j70153995813580_1_alg».proof.Proof.Gen.KernelIdeal.Frame
import proofs.«143177_j70153995813580_1_alg».proof.Proof.Gen.ReferenceIdeal
import proofs.«143177_j70153995813580_1_alg».proof.Proof.Gen.Pre_finite_inputs
import proofs.«143177_j70153995813580_1_alg».proof.Proof.Gen.KernelIdeal.Value
import proofs.«143177_j70153995813580_1_alg».proof.Proof.Gen.ReferenceIdeal.Run
import proofs.«143177_j70153995813580_1_alg».proof.Proof.Gen.ReferenceIdeal.Read
import proofs.«143177_j70153995813580_1_alg».proof.Proof.KernelArray
import proofs.«143177_j70153995813580_1_alg».proof.Proof.ReferenceRow
import Idealize.ShloMosaic.Adequacy
import Idealize.ShloMosaic.Init

noncomputable section

namespace Cert.Proof

open Idealize.ShloMosaic Idealize.SL.Sem Cert.Kernel

/-- The kernel as printed runs to the end without a fault and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the array of samples of their arguments, which agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RowValue.result_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
